-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S64x128 : Shape := ⟨2, ![64, 128]⟩
abbrev S64 : Shape := ⟨1, ![64]⟩
abbrev S64x16 : Shape := ⟨2, ![64, 16]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S262144x128 .f32) (main_arg1 : FVec F S64x128 .f32) (main_arg2 : FVec F S64 .f32) (main_arg3 : FVec F S64x16 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S262144x128 : Shape := ⟨2, ![262144, 128]⟩
abbrev S64x128 : Shape := ⟨2, ![64, 128]⟩
abbrev S64 : Shape := ⟨1, ![64]⟩
abbrev S64x16 : Shape := ⟨2, ![64, 16]⟩
abbrev S1x64 : Shape := ⟨2, ![1, 64]⟩
abbrev S262144x16 : Shape := ⟨2, ![262144, 16]⟩
abbrev S8192x128 : Shape := ⟨2, ![8192, 128]⟩
abbrev S8192x16 : Shape := ⟨2, ![8192, 16]⟩
abbrev S8192 : Shape := ⟨1, ![8192]⟩
abbrev S8192x1 : Shape := ⟨2, ![8192, 1]⟩
abbrev S64x1 : Shape := ⟨2, ![64, 1]⟩
abbrev S128x64 : Shape := ⟨2, ![128, 64]⟩
abbrev S8192x64 : Shape := ⟨2, ![8192, 64]⟩

abbrev nBuf : Space → Nat
  | .hbm => 6
  | .vmem => 7
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S64, .f32⟩
  | .hbm, ⟨3, _⟩ => ⟨S64x16, .f32⟩
  | .hbm, ⟨4, _⟩ => ⟨S1x64, .f32⟩
  | .hbm, ⟨5, _⟩ => ⟨S262144x16, .f32⟩
  | .local _ .vmem, ⟨0, _⟩ => ⟨S8192x128, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x16, .f32⟩
  | .local _ .vmem, ⟨5, _⟩ => ⟨S8192x16, .f32⟩
  | .local _ .vmem, ⟨6, _⟩ => ⟨S8192x16, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S8192x128_S8192x128_0_0 : ∀ a, (![0, 0] : Fin 2 → Nat) a + S8192x128.size a ≤ S8192x128.size a
  h_S8192x128 : 0 < S8192x128.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x16_S64x16_0_0 : ∀ a, (![0, 0] : Fin 2 → Nat) a + S64x16.size a ≤ S64x16.size a
  h_S64x16 : 0 < S64x16.numel
  reduces_S8192x128_S8192 : S8192x128.Reduces [1] S8192
  shapeCasts_S8192_S8192x1 : S8192.ShapeCasts S8192x1
  reduces_S64x128_S64 : S64x128.Reduces [1] S64
  shapeCasts_S64_S64x1 : S64.ShapeCasts S64x1
  transposes_S64x1_p1_0_S1x64 : S64x1.Transposes [1, 0] S1x64
  transposes_S64x128_p1_0_S128x64 : S64x128.Transposes [1, 0] S128x64
  broadcasts_S8192x1_S8192x64 : S8192x1.Broadcasts S8192x64
  broadcasts_S1x64_S8192x64 : S1x64.Broadcasts S8192x64
  inb_S8192x16_S8192x16_0_0 : ∀ a, (![0, 0] : Fin 2 → Nat) a + S8192x16.size a ≤ S8192x16.size a
  h_S8192x16 : 0 < S8192x16.numel
  dot_S8192x128_S128x64_S8192x64_1_0_0_1_n_n_wf : DotDims.WF S8192x128 S128x64 S8192x64 [1] [0] [0] [1] [] []
  dot_S8192x64_S64x16_S8192x16_1_0_0_1_n_n_wf : DotDims.WF S8192x64 S64x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x16.size a ≤ S262144x16.size a
  hwx0_4 : ∀ i : grid0.Coords, EltTy.bits .f32 = 32 ∨ (Rect.block (s := S262144x16) S8192x16.size (cc0_transform_4 i) (hinb0_4 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8192x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S64x128 : Shape := ⟨2, ![64, 128]⟩
abbrev S64 : Shape := ⟨1, ![64]⟩
abbrev S64x16 : Shape := ⟨2, ![64, 16]⟩
abbrev S_ : Shape := ⟨0, ![]⟩
abbrev S262144 : Shape := ⟨1, ![262144]⟩
abbrev S262144x1 : Shape := ⟨2, ![262144, 1]⟩
abbrev S128x64 : Shape := ⟨2, ![128, 64]⟩
abbrev S262144x64 : Shape := ⟨2, ![262144, 64]⟩
abbrev S1x64 : Shape := ⟨2, ![1, 64]⟩
abbrev S262144x16 : Shape := ⟨2, ![262144, 16]⟩

abbrev nBuf : Space → Nat
  | .hbm => 32
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S64, .f32⟩
  | .hbm, ⟨3, _⟩ => ⟨S64x16, .f32⟩
  | .hbm, ⟨4, _⟩ => ⟨S262144x128, .f32⟩
  | .hbm, ⟨5, _⟩ => ⟨S_, .f32⟩
  | .hbm, ⟨6, _⟩ => ⟨S262144, .f32⟩
  | .hbm, ⟨7, _⟩ => ⟨S262144x1, .f32⟩
  | .hbm, ⟨8, _⟩ => ⟨S64x128, .f32⟩
  | .hbm, ⟨9, _⟩ => ⟨S_, .f32⟩
  | .hbm, ⟨10, _⟩ => ⟨S64, .f32⟩
  | .hbm, ⟨11, _⟩ => ⟨S128x64, .f32⟩
  | .hbm, ⟨12, _⟩ => ⟨S262144x64, .f32⟩
  | .hbm, ⟨13, _⟩ => ⟨S_, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S262144x64, .f32⟩
  | .hbm, ⟨18, _⟩ => ⟨S1x64, .f32⟩
  | .hbm, ⟨19, _⟩ => ⟨S262144x64, .f32⟩
  | .hbm, ⟨20, _⟩ => ⟨S262144x64, .f32⟩
  | .hbm, ⟨21, _⟩ => ⟨S262144x64, .f32⟩
  | .hbm, ⟨22, _⟩ => ⟨S1x64, .f32⟩
  | .hbm, ⟨23, _⟩ => ⟨S262144x64, .f32⟩
  | .hbm, ⟨24, _⟩ => ⟨S262144x64, .f32⟩
  | .hbm, ⟨25, _⟩ => ⟨S262144x64, .f32⟩
  | .hbm, ⟨26, _⟩ => ⟨S64x16, .f32⟩
  | .hbm, ⟨27, _⟩ => ⟨S262144x16, .f32⟩
  | .hbm, ⟨28, _⟩ => ⟨S_, .f32⟩
  | .hbm, ⟨29, _⟩ => ⟨S262144x16, .f32⟩
  | .hbm, ⟨30, _⟩ => ⟨S262144x16, .f32⟩
  | .hbm, ⟨31, _⟩ => ⟨S262144x16, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S64x128_S64_d1 : S64x128.ReducesTo [1] S64
  transposes_S64x128_S128x64_1_0 : S64x128.Transposes [1, 0] S128x64
  bcast_S_S262144x64 : S_.BroadcastsInDim S262144x64 (![] : Fin 0 → Fin S262144x64.rank)
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x16 : S_.BroadcastsInDim S262144x16 (![] : Fin 0 → Fin S262144x16.rank)
  dot_S262144x128_S128x64_S262144x64_1_0_0_1_n_n_wf : DotDims.WF S262144x128 S128x64 S262144x64 [1] [0] [0] [1] [] []
  dot_S262144x64_S64x16_S262144x16_1_0_0_1_n_n_wf : DotDims.WF S262144x64 S64x16 S262144x16 [1] [0] [0] [1] [] []

variable [Facts₀]

def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf

class Facts : Prop extends Facts₀ where

variable [Facts]
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.RowSigma.lean ====
/-
  The quantity both programs compute. For one data row z (128 entries), 64 centres c_k (128 entries each) with
  widths λ_k, and a weight matrix W (64 by 16), output column o holds

      σ(z)_o = 1 / sqrt( Σ_k exp( -(‖z‖² - 2·⟨z, c_k⟩ + ‖c_k‖²) · λ_k ) · W_{k,o}² + ε )

  read on the extended reals: the squared distance from z to c_k is taken in its expanded form, summed in the
  order (‖z‖² - 2·⟨z, c_k⟩) + ‖c_k‖², and the factor 2 and the offset ε are the two 32-bit patterns both programs
  spell, left as patterns (they are the same on both sides, so their values never matter). The result array has one
  such row per data row.
-/
import Idealize.ShloMosaic.PureOps.Ideal
import Idealize.ShloMosaic.Lib.ValueIdx

noncomputable section

namespace Cert.RbfSigma

open Idealize.ShloMosaic Idealize.ShloMosaic.ValueIdx

/-- The squared distance from a row z to one centre c, expanded: (Σ z² - 2·Σ z·c) + Σ c². -/
def dist2 (zr ck : Fin 128 → EReal) : EReal :=
  ((∑ d : Fin 128, zr d * zr d) - Ideal.ofBits .f32 0x40000000#32 * ∑ d : Fin 128, zr d * ck d)
    + ∑ d : Fin 128, ck d * ck d

/-- Output column o for one row: the inverse square root of the weighted sum of the 64 radial responses, plus ε. -/
def sigmaRow (zr : Fin 128 → EReal) (cn : Fin 64 → Fin 128 → EReal) (lam : Fin 64 → EReal)
    (w : Fin 64 → Fin 16 → EReal) (o : Fin 16) : EReal :=
  Ideal.rsqrt ((∑ k : Fin 64, Ideal.exp (-(dist2 zr (cn k)) * lam k) * (w k o * w k o))
    + Ideal.ofBits .f32 0x358637BD#32)

/-- `sigmaRow` depends only on the entries of its four arguments. -/
theorem sigmaRow_congr {zr zr' : Fin 128 → EReal} {cn cn' : Fin 64 → Fin 128 → EReal} {lam lam' : Fin 64 → EReal}
    {w w' : Fin 64 → Fin 16 → EReal} (hz : ∀ d, zr d = zr' d) (hc : ∀ k d, cn k d = cn' k d) (hl : ∀ k, lam k = lam' k)
    (hw : ∀ k o, w k o = w' k o) (o : Fin 16) : sigmaRow zr cn lam w o = sigmaRow zr' cn' lam' w' o := by
  obtain rfl : zr = zr' := funext hz
  obtain rfl : cn = cn' := funext fun k => funext (hc k)
  obtain rfl : lam = lam' := funext hl
  obtain rfl : w = w' := funext fun k => funext (hw k)
  rfl

/-- The whole result: row r, column o of the [262144, 16] array is `sigmaRow` of row r of the data. -/
def sigma (z : (⟨2, ![262144, 128]⟩ : Shape).Idx → EReal) (cn : (⟨2, ![64, 128]⟩ : Shape).Idx → EReal)
    (lam : (⟨1, ![64]⟩ : Shape).Idx → EReal) (w : (⟨2, ![64, 16]⟩ : Shape).Idx → EReal) :
    (⟨2, ![262144, 16]⟩ : Shape).Idx → EReal :=
  fun i => sigmaRow (fun d => z (ix2 (i 0) d)) (fun k d => cn (ix2 k d)) (fun k => lam (ix1 k))
    (fun k o => w (ix2 k o)) (i 1)

theorem sigma_apply (z : (⟨2, ![262144, 128]⟩ : Shape).Idx → EReal) (cn : (⟨2, ![64, 128]⟩ : Shape).Idx → EReal)
    (lam : (⟨1, ![64]⟩ : Shape).Idx → EReal) (w : (⟨2, ![64, 16]⟩ : Shape).Idx → EReal) (r : Fin 262144) (o : Fin 16) :
    sigma z cn lam w (ix2 r o) = sigmaRow (fun d => z (ix2 r d)) (fun k d => cn (ix2 k d)) (fun k => lam (ix1 k))
      (fun k o => w (ix2 k o)) o := rfl

end Cert.RbfSigma

end
-- ==== Proof.TileSigma.lean ====
/-
  The kernel's body on one tile of 8192 data rows, read at row p and column q. The body forms the tile of
  expanded squared distances (row norms spread along the columns, minus twice the product of the tile with the
  transposed centres, plus the centres' norms spread along the rows), negates it, scales column k by λ_k,
  exponentiates, multiplies by the squared weights and adds ε before the inverse square root. Read at (p, q)
  that is `sigmaRow` of row p of the tile.
-/
import proofs.«126767_j4492535791757_1_alg».proof.Proof.Gen.KernelIdeal.Skeleton
import proofs.«126767_j4492535791757_1_alg».proof.Proof.LibTile
import proofs.«126767_j4492535791757_1_alg».proof.Proof.LibPlainProduct
import proofs.«126767_j4492535791757_1_alg».proof.Proof.RowSigma
import Idealize.ShloMosaic.Lib.ValueLayout

noncomputable section

namespace Cert.RbfSigma.Tile

open Idealize.ShloMosaic Idealize.ShloMosaic.ValueIdx

/-! ## The three pieces of the expanded distance, at any sizes -/

section pieces

variable {a b c : ℕ}

/-- The squared norms of the rows of X, kept as a column and spread along c columns: at (p, x), Σ_k X(p,k)². -/
theorem rowNormSpread_apply (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (shapeCast ⟨2, ![a, 1]⟩ (multiReduction (F := Ideal) .add [1] ⟨1, ![a]⟩ (mulf X X) 0x00000000#32 h hφ hacc) hc)
        hb (ix2 p x)
      = ∑ k : Fin b, X (ix2 p k) * X (ix2 p k) :=
  (Cert.Tile.broadcastTo_a1_ab_apply _ hb p x).trans (Cert.Tile.rowSumCol_apply (mulf X X) h hφ hacc hc p 0)

/-- The squared norms of the rows of C, turned into a row and spread along a rows: at (p, x), Σ_k C(x,k)². -/
theorem centreNormSpread_apply (C : FVec Ideal ⟨2, ![c, b]⟩ .f32)
    (h : Shape.Reduces ⟨2, ![c, b]⟩ [1] ⟨1, ![c]⟩) (hφ : FKind.Formats .f32)
    (hacc : (0x00000000#32 : BitVec 32) = 0x00000000#32)
    (hc : (⟨1, ![c]⟩ : Shape).ShapeCasts ⟨2, ![c, 1]⟩)
    (ht : (⟨2, ![c, 1]⟩ : Shape).Transposes [1, 0] ⟨2, ![1, c]⟩)
    (hb : (⟨2, ![1, c]⟩ : Shape).Broadcasts ⟨2, ![a, c]⟩) (p : Fin a) (x : Fin c) :
    broadcastTo ⟨2, ![a, c]⟩
        (transpose ⟨2, ![1, c]⟩ [1, 0]
          (shapeCast ⟨2, ![c, 1]⟩ (multiReduction (F := Ideal) .add [1] ⟨1, ![c]⟩ (mulf C C) 0x00000000#32 h hφ hacc) hc) ht)
        hb (ix2 p x)
      = ∑ k : Fin b, C (ix2 x k) * C (ix2 x k) :=
  (broadcastTo_1b_ab_apply _ hb p x).trans
    ((transpose_ix2_apply _ ht (0 : Fin 1) x).trans (Cert.Tile.rowSumCol_apply (mulf C C) h hφ hacc hc x 0))

/-- The product of X with the transpose of C into a zero accumulator: at (p, x), Σ_k X(p,k)·C(x,k). -/
theorem crossProduct_apply (prec : Option ContractPrecision) (X : FVec Ideal ⟨2, ![a, b]⟩ .f32)
    (C : FVec Ideal ⟨2, ![c, b]⟩ .f32) (ht : (⟨2, ![c, b]⟩ : Shape).Transposes [1, 0] ⟨2, ![b, c]⟩)
    (p : Fin a) (x : Fin c) :
    matmul (F := Ideal) (DotDims.plain a b c) prec X (transpose ⟨2, ![b, c]⟩ [1, 0] C ht)
        (constant (F := Ideal) ⟨2, ![a, c]⟩ .f32 0x00000000#32) (ix2 p x)
      = ∑ k : Fin b, X (ix2 p k) * C (ix2 x k) :=
  (Cert.PlainProduct.matmul_zero_apply prec X _ p x).trans
    (Finset.sum_congr rfl fun k _ => congrArg (X (ix2 p k) * ·) (transpose_ix2_apply C ht k x))

end pieces

/-! ## The body's stored value -/

open Cert.KernelIdeal Cert.KernelIdeal.Gen

/-- The value the body stores, at row p and column q of the tile, is `sigmaRow` of row p of the data tile, the
    centres, the widths' one row and the weights as loaded. -/
theorem pay_apply (x0 : Vec Ideal S8192x128 .f32) (x1 : Vec Ideal S64x128 .f32) (x2 : Vec Ideal S1x64 .f32)
    (x3 : Vec Ideal S64x16 .f32) (p : Fin 8192) (q : Fin 16) :
    k0_pay1 (F := Ideal) x0 x1 x2 x3 (ix2 p q)
      = sigmaRow (fun d => x0 (ix2 p d)) (fun k d => x1 (ix2 k d)) (fun k => x2 (ix2 (0 : Fin 1) k))
          (fun k o => x3 (ix2 k o)) q := by
  unfold k0_pay1 sigmaRow
  refine congrArg (fun s => Ideal.rsqrt (s + Ideal.ofBits .f32 0x358637BD#32)) ?_
  refine (Cert.PlainProduct.matmul_zero_apply none _ _ p q).trans (Finset.sum_congr rfl fun k _ => ?_)
  refine congrArg (fun e => Ideal.exp e * (x3 (ix2 k q) * x3 (ix2 k q))) ?_
  refine congrArg₂ (· * ·) ?_ ((broadcastTo_1b_ab_apply _ _ p k).trans (congrFun (shapeCast_self x2 _) (ix2 (0 : Fin 1) k)))
  show Ideal.ofBits .f32 0x00000000#32 - _ = _
  rw [Ideal.ofBits_zero_f32, zero_sub]
  refine congrArg Neg.neg ?_
  unfold dist2
  exact congrArg₂ (· + ·)
    (congrArg₂ (· - ·) (rowNormSpread_apply x0 _ _ _ _ _ p k)
      (congrArg (Ideal.ofBits .f32 0x40000000#32 * ·) (crossProduct_apply none x0 x1 _ p k)))
    (centreNormSpread_apply x1 _ _ _ _ _ _ p k)

end Cert.RbfSigma.Tile

end
-- ==== Proof.WholeSigma.lean ====
/-
  From tiles to the whole array. Grid point t of the 32 stages rows 8192·t … 8192·t + 8191 of the data, and the
  whole of the centres, of the widths' one row and of the weights; what it writes back is rows 8192·t … 8192·t + 8191
  of the result. Row p of its tile is therefore row 8192·t + p of the data, the body's stored value there is
  `sigmaRow` of that row, and the 32 blocks tile the [262144, 16] result: the result array ends at `sigma` of the
  four argument arrays.
-/
import proofs.«126767_j4492535791757_1_alg».proof.Proof.Gen.KernelIdeal.Value
import proofs.«126767_j4492535791757_1_alg».proof.Proof.TileSigma
import Idealize.ShloMosaic.Lib.StableHlo.Run
import Idealize.ShloMosaic.Lib.ValueLayout

noncomputable section

namespace Cert.RbfSigma.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index maps over the 32 points: the data's and the result's row block is the point, every other
    block index is 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's tile, as a row of the whole arrays. -/
def row (t : Fin cfg0.N) (p : Fin 8192) : Fin 262144 :=
  ⟨t.val * 8192 + p.val, by have h := t.isLt; have hN : cfg0.N = 32 := N_0; have := p.isLt; omega⟩

/-- Entry (p, q) of point t's result block is entry (8192·t + p, q) of the result. -/
theorem out_at (t : Fin cfg0.N) (p : Fin 8192) (q : Fin 16) :
    ((cfg0.win 4).blk t).view.emb (ix2 p q) = ix2 (row t p) q := by
  obtain ⟨-, -, -, -, -, -, -, -, e40, e41⟩ := index_facts t
  funext a; apply Fin.ext
  match a with
  | ⟨0, _⟩ => show win0_4.index t (0 : Fin 2) * 8192 + 1 * p.val = t.val * 8192 + p.val; omega
  | ⟨1, _⟩ => show win0_4.index t (1 : Fin 2) * 16 + 1 * q.val = q.val; omega

/-! ## What each staged block holds -/

/-- The data tile at (p, d) is the data at (8192·t + p, d). -/
theorem data_read (c : Dev nD) (t : Fin cfg0.N) (p : Fin 8192) (d : Fin 128) :
    iblk m c 0 t (ix2 p d) = m ((c : Thread nD τ).loc main_arg0) (ix2 (row t p) d) := by
  obtain ⟨e00, e01, -, -, -, -, -, -, -, -⟩ := index_facts t
  refine Eq.trans ?_ (congrFun (V_main_arg0 m c) (ix2 (row t p) d))
  show V m c main_arg0 (((cfg0.win 0).blk t).view.emb (ix2 p d)) = V m c main_arg0 (ix2 (row t p) d)
  refine congrArg (V m c main_arg0) (funext fun a => Fin.ext ?_)
  match a with
  | ⟨0, _⟩ => show win0_0.index t (0 : Fin 2) * 8192 + 1 * p.val = t.val * 8192 + p.val; omega
  | ⟨1, _⟩ => show win0_0.index t (1 : Fin 2) * 128 + 1 * d.val = d.val; omega

/-- The centres' block is the centres. -/
theorem centres_read (c : Dev nD) (t : Fin cfg0.N) (k : Fin 64) (d : Fin 128) :
    iblk m c 1 t (ix2 k d) = m ((c : Thread nD τ).loc main_arg1) (ix2 k d) := by
  obtain ⟨-, -, e10, e11, -, -, -, -, -, -⟩ := index_facts t
  refine Eq.trans ?_ (congrFun (V_main_arg1 m c) (ix2 k d))
  show V m c main_arg1 (((cfg0.win 1).blk t).view.emb (ix2 k d)) = V m c main_arg1 (ix2 k d)
  refine congrArg (V m c main_arg1) (funext fun a => Fin.ext ?_)
  match a with
  | ⟨0, _⟩ => show win0_1.index t (0 : Fin 2) * 64 + 1 * k.val = k.val; omega
  | ⟨1, _⟩ => show win0_1.index t (1 : Fin 2) * 128 + 1 * d.val = d.val; omega

/-- The weights' block is the weights. -/
theorem weights_read (c : Dev nD) (t : Fin cfg0.N) (k : Fin 64) (o : Fin 16) :
    iblk m c 3 t (ix2 k o) = m ((c : Thread nD τ).loc main_arg3) (ix2 k o) := by
  obtain ⟨-, -, -, -, -, -, e30, e31, -, -⟩ := index_facts t
  refine Eq.trans ?_ (congrFun (V_main_arg3 m c) (ix2 k o))
  show V m c main_arg3 (((cfg0.win 3).blk t).view.emb (ix2 k o)) = V m c main_arg3 (ix2 k o)
  refine congrArg (V m c main_arg3) (funext fun a => Fin.ext ?_)
  match a with
  | ⟨0, _⟩ => show win0_3.index t (0 : Fin 2) * 64 + 1 * k.val = k.val; omega
  | ⟨1, _⟩ => show win0_3.index t (1 : Fin 2) * 16 + 1 * o.val = o.val; omega

/-- The array the widths' window stages is made by the one host operation before the call: the 64 widths laid
    out as one row. -/
theorem widthsRow_entry (c : Dev nD) :
    (V m c main_v0 : S1x64.Idx → EReal)
      = shapeCast S1x64 (m ((c : Thread nD τ).loc main_arg2) : S64.Idx → EReal) shapeCasts_S64_S1x64 := by
  dsimp only [V, hostOps0]
  after_results
  rfl

/-- The widths' block at (0, k) is width k. -/
theorem widths_read (c : Dev nD) (t : Fin cfg0.N) (k : Fin 64) :
    iblk m c 2 t (ix2 (0 : Fin 1) k) = m ((c : Thread nD τ).loc main_arg2) (ix1 k) := by
  obtain ⟨-, -, -, -, e20, e21, -, -, -, -⟩ := index_facts t
  refine Eq.trans ?_ ((congrFun (widthsRow_entry m c) (ix2 (0 : Fin 1) k)).trans (shapeCast_a_1a_apply _ _ (0 : Fin 1) k))
  show V m c main_v0 (((cfg0.win 2).blk t).view.emb (ix2 (0 : Fin 1) k)) = V m c main_v0 (ix2 (0 : Fin 1) k)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

/-! ## What a point writes back, and the array after the run -/

/-- Point t writes back block t of `sigma` of the argument arrays. -/
theorem flushed_eq (c : Dev nD) (t : Fin cfg0.N) :
    (dats m 0 c).flushed 4 t = ((cfg0.win 4).blk t).view.read (Elt Ideal)
      (sigma (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero origin]
  simp only [View.ld_unit_zero (S := S8192x128) origin, View.ld_unit_zero (S := S64x128) origin,
    View.ld_unit_zero (S := S1x64) origin, View.ld_unit_zero (S := S64x16) origin]
  funext j
  obtain ⟨p, q, rfl⟩ : ∃ (p : Fin 8192) (q : Fin 16), j = ix2 p q := ⟨j 0, j 1, eq_ix2 j⟩
  show k0_pay1 (F := Ideal) (iblk m c 0 t) (iblk m c 1 t) (iblk m c 2 t) (iblk m c 3 t) (ix2 p q)
    = sigma (m ((c : Thread nD τ).loc main_arg0)) (m ((c : Thread nD τ).loc main_arg1))
        (m ((c : Thread nD τ).loc main_arg2)) (m ((c : Thread nD τ).loc main_arg3)) (((cfg0.win 4).blk t).view.emb (ix2 p q))
  refine (Cert.RbfSigma.Tile.pay_apply _ _ _ _ p q).trans ?_
  refine Eq.trans ?_ (congrArg (sigma (m ((c : Thread nD τ).loc main_arg0)) (m ((c : Thread nD τ).loc main_arg1))
        (m ((c : Thread nD τ).loc main_arg2)) (m ((c : Thread nD τ).loc main_arg3))) (out_at t p q)).symm
  rw [sigma_apply]
  exact sigmaRow_congr (data_read m c t p) (centres_read m c t) (widths_read m c t) (weights_read m c t) q

/-- An index of the result is in point t's block iff each coordinate is in the block's range on its axis. -/
theorem mem_block (t : Fin cfg0.N) (i : S262144x16.Idx) :
    i ∈ ((cfg0.win 4).blk t).view.set ↔ ∀ a : Fin 2, win0_4.index t a * S8192x16.size a ≤ (i a).val
      ∧ (i a).val < win0_4.index t a * S8192x16.size a + S8192x16.size a := by
  show i ∈ ((View.whole main_v1).slice (win0_4.rect t)).set ↔ _
  rw [View.set_slice_whole, Rect.mem_set_unit]
  exact Iff.rfl

/-- Every index of the result is in the block of the point that holds its row: point (row / 8192). -/
theorem covered (i : S262144x16.Idx) :
    ∃ t : Fin cfg0.N, (cfg0.win 4).flush t = true ∧ i ∈ ((cfg0.win 4).blk t).view.set := by
  have hi0 : (i 0).val < 262144 := (i 0).isLt
  have hi1 : (i 1).val < 16 := (i 1).isLt
  have hN : cfg0.N = 32 := N_0
  obtain ⟨t, ht⟩ : ∃ t : Fin cfg0.N, t.val = (i 0).val / 8192 := ⟨⟨(i 0).val / 8192, by omega⟩, rfl⟩
  obtain ⟨-, -, -, -, -, -, -, -, e40, e41⟩ := index_facts t
  refine ⟨t, flush0_4 t, ?_⟩
  rw [mem_block]
  intro a
  match a with
  | ⟨0, _⟩ =>
    show win0_4.index t (0 : Fin 2) * 8192 ≤ (i 0).val ∧ (i 0).val < win0_4.index t (0 : Fin 2) * 8192 + 8192
    omega
  | ⟨1, _⟩ =>
    show win0_4.index t (1 : Fin 2) * 16 ≤ (i 1).val ∧ (i 1).val < win0_4.index t (1 : Fin 2) * 16 + 16
    omega

/-- The result array after the run is `sigma` of the argument arrays. -/
theorem final (c : Dev nD) :
    (dats m 0 c).arrAt 4 cfg0.N
      = sigma (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) covered

/-- The kernel's run: it terminates with the result at `sigma` of the arguments and the arguments unchanged. -/
theorem run : θ_run defs (onTc (τ := τ) (main (F := Ideal))) ⟨m, fun _ => 0, ρ⟩ fun r => ∀ c : Dev nD,
      r.2.mem ((c : Thread nD τ).loc main_v1)
        = sigma (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.RbfSigma.Whole

end
-- ==== Proof.RefSigma.lean ====
/-
  The reference, read one operation at a time at row r and column o, is `sigma`: its sums carry an initial 0,
  which is absorbed; its negation is the extended reals' negation; its two products are plain sums over the
  contracted coordinate; and every broadcast reads its operand at the coordinates that survive.
-/
import proofs.«126767_j4492535791757_1_alg».proof.Proof.Gen.ReferenceIdeal.Read
import proofs.«126767_j4492535791757_1_alg».proof.Proof.RowSigma

noncomputable section

namespace Cert.RbfSigma.Ref

open Idealize.ShloMosaic Idealize.ShloMosaic.ValueIdx Cert.ReferenceIdeal Cert.ReferenceIdeal.Read

/-! ## Where each operation reads its operand, in coordinates -/

section coordinates

variable (r : Fin 262144) (o : Fin 16) (k : Fin 64) (d : Fin 128) (u : Fin 1)

/-- The second product reads the responses at (r, k) … -/
theorem resp_at : lidx_main_v20 (ix2 r o) k = ix2 r k :=
  funext fun a => Fin.ext (by match a with | ⟨0, _⟩ => rfl | ⟨1, _⟩ => rfl)
/-- … and the squared weights at (k, o). -/
theorem wsq_at : ridx_main_v20 (ix2 r o) k = ix2 k o :=
  funext fun a => Fin.ext (by match a with | ⟨0, _⟩ => rfl | ⟨1, _⟩ => rfl)
/-- A row [1, 64] spread over the rows is read at (0, k). -/
theorem lamRow_at : idx_main_v16 (ix2 r k) = ix2 (0 : Fin 1) k :=
  funext fun a => Fin.ext (by match a with | ⟨0, _⟩ => rfl | ⟨1, _⟩ => rfl)
/-- The widths as a row are read at k. -/
theorem lam_at : idx_main_v15 (ix2 u k) = ix1 k :=
  funext fun a => Fin.ext (by match a with | ⟨0, _⟩ => rfl)
theorem cnormRow_at : idx_main_v12 (ix2 r k) = ix2 (0 : Fin 1) k :=
  funext fun a => Fin.ext (by match a with | ⟨0, _⟩ => rfl | ⟨1, _⟩ => rfl)
theorem cnorm_at : idx_main_v11 (ix2 u k) = ix1 k :=
  funext fun a => Fin.ext (by match a with | ⟨0, _⟩ => rfl)
/-- The centres' norms sum row k of the centres. -/
theorem csum_at : idx_main_v4 (ix1 k) d = ix2 k d :=
  funext fun a => Fin.ext (by match a with | ⟨0, _⟩ => rfl | ⟨1, _⟩ => rfl)
/-- A column [262144, 1] spread over the columns is read at (r, 0). -/
theorem znormCol_at : idx_main_v9 (ix2 r k) = ix2 r (0 : Fin 1) :=
  funext fun a => Fin.ext (by match a with | ⟨0, _⟩ => rfl | ⟨1, _⟩ => rfl)
theorem znorm_at : idx_main_v2 (ix2 r u) = ix1 r :=
  funext fun a => Fin.ext (by match a with | ⟨0, _⟩ => rfl)
/-- The data's norms sum row r of the data. -/
theorem zsum_at : idx_main_v1 (ix1 r) d = ix2 r d :=
  funext fun a => Fin.ext (by match a with | ⟨0, _⟩ => rfl | ⟨1, _⟩ => rfl)
/-- The first product reads the data at (r, d) … -/
theorem z_at : lidx_main_v6 (ix2 r k) d = ix2 r d :=
  funext fun a => Fin.ext (by match a with | ⟨0, _⟩ => rfl | ⟨1, _⟩ => rfl)
/-- … and the transposed centres at (d, k), -/
theorem ct_at : ridx_main_v6 (ix2 r k) d = ix2 d k :=
  funext fun a => Fin.ext (by match a with | ⟨0, _⟩ => rfl | ⟨1, _⟩ => rfl)
/-- which is the centres at (k, d). -/
theorem c_at : idx_main_v5 (ix2 d k) = ix2 k d :=
  funext fun a => Fin.ext (by match a with | ⟨0, _⟩ => rfl | ⟨1, _⟩ => rfl)

end coordinates

/-! ## The last stage is `sigma` -/

theorem reference_eq (x0 : (⟨S262144x128, .f32⟩ : BufTy).Contents (Elt Ideal)) (x1 : (⟨S64x128, .f32⟩ : BufTy).Contents (Elt Ideal))
    (x2 : (⟨S64, .f32⟩ : BufTy).Contents (Elt Ideal)) (x3 : (⟨S64x16, .f32⟩ : BufTy).Contents (Elt Ideal)) :
    val_main_v23 (F := Ideal) x0 x1 x2 x3 = sigma x0 x1 x2 x3 := by
  funext i
  obtain ⟨r, o, rfl⟩ : ∃ (r : Fin 262144) (o : Fin 16), i = ix2 r o := ⟨i 0, i 1, eq_ix2 i⟩
  rw [sigma_apply]
  unfold sigmaRow dist2
  simp only [val_main_v23_apply, val_main_v22_apply, val_main_v21_apply, val_main_cst_2_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_cst_1_apply, val_main_v6_apply,
    val_main_v5_apply, val_main_v4_apply, val_main_cst_0_apply, val_main_v3_apply, val_main_v2_apply,
    val_main_v1_apply, val_main_cst_apply, val_main_v0_apply,
    resp_at, wsq_at, lamRow_at, lam_at, cnormRow_at, cnorm_at, csum_at, znormCol_at, znorm_at, zsum_at, z_at, ct_at, c_at,
    Ideal.hostUnary_rsqrt_def, Ideal.hostUnary_exp_def, Ideal.hostNegf_def, Ideal.negf_def, Ideal.addf_def,
    Ideal.subf_def, Ideal.mulf_def, Ideal.ofBits_def, Ideal.ofBits_zero_f32, zero_add]

end Cert.RbfSigma.Ref

end
-- ==== Proof.lean ====
/-
  A radial-basis variance head: for each of 262144 data rows z, the 64 responses exp(-‖z - c_k‖²·λ_k) (the squared
  distance expanded as ‖z‖² - 2⟨z, c_k⟩ + ‖c_k‖²) are weighted by the squared entries of a [64, 16] matrix, summed,
  offset by ε, and the inverse square root is returned. The kernel does this on 32 tiles of 8192 rows with the
  centres, widths and weights resident; the reference does it on the whole arrays at once. On the extended reals both
  are the one function `Cert.RbfSigma.sigma` of the four arguments, operation for operation: the same two sums
  of squares, the same product with the transposed centres, the same order of the subtraction and the addition,
  the same two literals. The only differences are a negation the kernel writes as 0 - x, the initial 0 the
  reference's sums carry, and the tiling; none needs the inputs to be finite.

  The three frames are the generated ones (the reference's is its generated run with the result dropped); the
  idealization rewrote nothing, so its ledger is empty; the equivalence is the kernel's run read at `sigma`
  (WholeSigma, over TileSigma for one tile) beside the reference's run read at `sigma` (RefSigma).
-/
import proofs.«126767_j4492535791757_1_alg».proof.Defs
import proofs.«126767_j4492535791757_1_alg».proof.Proof.Gen.Kernel
import proofs.«126767_j4492535791757_1_alg».proof.Proof.Gen.Kernel.Skeleton
import proofs.«126767_j4492535791757_1_alg».proof.Proof.Gen.Kernel.Launch
import proofs.«126767_j4492535791757_1_alg».proof.Proof.Gen.Kernel.Points
import proofs.«126767_j4492535791757_1_alg».proof.Proof.Gen.Kernel.Frame
import proofs.«126767_j4492535791757_1_alg».proof.Proof.Gen.KernelIdeal
import proofs.«126767_j4492535791757_1_alg».proof.Proof.Gen.KernelIdeal.Skeleton
import proofs.«126767_j4492535791757_1_alg».proof.Proof.Gen.KernelIdeal.Launch
import proofs.«126767_j4492535791757_1_alg».proof.Proof.Gen.KernelIdeal.Points
import proofs.«126767_j4492535791757_1_alg».proof.Proof.Gen.KernelIdeal.Frame
import proofs.«126767_j4492535791757_1_alg».proof.Proof.Gen.ReferenceIdeal
import proofs.«126767_j4492535791757_1_alg».proof.Proof.Gen.Pre_finite_inputs
import proofs.«126767_j4492535791757_1_alg».proof.Proof.Gen.KernelIdeal.Value
import proofs.«126767_j4492535791757_1_alg».proof.Proof.Gen.ReferenceIdeal.Run
import proofs.«126767_j4492535791757_1_alg».proof.Proof.Gen.ReferenceIdeal.Read
import proofs.«126767_j4492535791757_1_alg».proof.Proof.WholeSigma
import proofs.«126767_j4492535791757_1_alg».proof.Proof.RefSigma
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at `sigma` of their own arguments, and the arguments agree. -/
theorem algebraic : Cert.algebraic_KernelIdeal_ReferenceIdeal := by
  intro m ρ m' ρ' _ hagree
  refine ⟨_, Cert.RbfSigma.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RbfSigma.Ref.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
